-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S10000x128 .f32) (main_arg1 : FVec F S10000x10000 .f32) (main_arg2 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 5
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S1x128, .f32⟩
  | .hbm, ⟨4, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S1x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128 : Shape := ⟨1, ![128]⟩
abbrev S_ : Shape := ⟨0, ![]⟩
abbrev S128x128 : Shape := ⟨2, ![128, 128]⟩
abbrev S128x1 : Shape := ⟨2, ![128, 1]⟩

abbrev nBuf : Space → Nat
  | .hbm => 18
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S128x1, .f32⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S10000x128, .f32⟩
  | .hbm, ⟨17, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩

abbrev nD : Nat := 1
abbrev τ : Topo := Topo.v7x

variable {F : FTy → Type} [FloatOps F]

class Facts₀ : Prop where
  pads_S128_S128_000 : S128.Pads (![0] : Fin 1 → Nat) ![0] ![0] S128
  h_S_ : 0 < S_.numel
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibPlainDot.lean ====
/-
  A contraction with the plain dimension numbers — left operand [M, K] contracted on its second axis, right
  operand [K, N] on its first, no batch axis — read at an output index (p, q): the sum over k : Fin K of the left
  operand at (p, k) times the right operand at (k, q). Stated for any record carrying those six lists (its
  well-formedness proof is irrelevant), at the ideal values, for a matrix product accumulated into the zero
  splat and for the host's dot_general. Imports only the library.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The record's six axis lists are the plain ones: rows × contraction times contraction × columns. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- Such a record IS the library's plain one: the lists agree and the remaining field is a proof. -/
theorem IsPlain.eq_plain {d : DotDims ⟨2, ![M, K]⟩ ⟨2, ![K, N]⟩ ⟨2, ![M, N]⟩} (h : IsPlain d) : d = DotDims.plain M K N := by
  obtain ⟨lc, rc, ln, rn, lb, rb, wf⟩ := d
  obtain ⟨h1, h2, h3, h4, h5, h6⟩ := h
  dsimp only at h1 h2 h3 h4 h5 h6
  subst h1 h2 h3 h4 h5 h6
  rfl

/-! The operand indices of the plain record, one axis at a time: the left operand's row is the output's row and
    its column the contraction position; the right operand's row is the contraction position and its column the
    output's column. -/

theorem lhs_row (i : (⟨2, ![M, N]⟩ : Shape).Idx) (k : (DotDims.plain M K N).contr.Idx) :
    ((DotDims.plain M K N).lhsIdx i k 0).val = (i 0).val := rfl
theorem lhs_col (i : (⟨2, ![M, N]⟩ : Shape).Idx) (k : (DotDims.plain M K N).contr.Idx) :
    ((DotDims.plain M K N).lhsIdx i k 1).val = (k ⟨0, Nat.zero_lt_one⟩).val := rfl
theorem rhs_row (i : (⟨2, ![M, N]⟩ : Shape).Idx) (k : (DotDims.plain M K N).contr.Idx) :
    ((DotDims.plain M K N).rhsIdx i k 0).val = (k ⟨0, Nat.zero_lt_one⟩).val := rfl
theorem rhs_col (i : (⟨2, ![M, N]⟩ : Shape).Idx) (k : (DotDims.plain M K N).contr.Idx) :
    ((DotDims.plain M K N).rhsIdx i k 1).val = (i 1).val := rfl

/-- The plain record's sum over its contraction index is the sum over k : Fin K of L (p, k) · R (k, q). -/
theorem sum_plain (L : (⟨2, ![M, K]⟩ : Shape).Idx → EReal) (R : (⟨2, ![K, N]⟩ : Shape).Idx → EReal) (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

variable {φ₁ φ₂ : FTy}

/-- A matrix product with plain dimension numbers into the zero splat, at (p, q): ∑ k, lhs (p, k) · rhs (k, q). -/
theorem matmul_zero_apply {d : DotDims ⟨2, ![M, K]⟩ ⟨2, ![K, N]⟩ ⟨2, ![M, N]⟩} (h : IsPlain d) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q) = ∑ k : Fin K, lhs (ix2 p k) * rhs (ix2 k q) := by
  rw [h.eq_plain, Ideal.matmul_constant_zero_apply]
  exact sum_plain lhs rhs p q

/-- The host's dot_general with plain dimension numbers, at (p, q): the same sum, whatever the schedule key. -/
theorem dotGeneral_apply {d : DotDims ⟨2, ![M, K]⟩ ⟨2, ![K, N]⟩ ⟨2, ![M, N]⟩} (h : IsPlain d) (prec : Option ContractPrecision)
    (sched : HostSchedule) (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  rw [h.eq_plain, Ideal.dotGeneral_apply]
  exact sum_plain lhs rhs p q

end Idealize.ShloMosaic.PlainDot

end
-- ==== Proof.Spec.lean ====
/-
  The function both programs compute, and the two laws of the extended reals that join their arrangements.

  With x : [10000, 128], A : [10000, 10000], W : [128], the aggregated and column-scaled features are

      agg x A W (i, j) = (∑ k, A (i, k) · x (k, j)) · W j .

  The kernel computes exactly this, block of rows by block of rows. The reference first multiplies x by the
  diagonal matrix of W — row k, column j of that product is ∑ l, x (k, l) · (W l if l = j, else 0), a sum with
  one surviving term, x (k, j) · W j, since a product with zero vanishes on every extended real — and then
  aggregates: ∑ k, A (i, k) · (x (k, j) · W j). Taking the common factor W j out of that sum is distributivity,
  which on the extended reals needs every term to be a real number: that is where finiteness of the inputs is used.
-/
import Idealize.ShloMosaic.PureOps.Ideal
import Idealize.ShloMosaic.Lib.ValueIdx

noncomputable section

namespace GcnDiag

open Idealize.ShloMosaic Idealize.ShloMosaic.ValueIdx

/-- The features, the adjacency matrix and the diagonal weights. -/
abbrev SX : Shape := ⟨2, ![10000, 128]⟩
abbrev SA : Shape := ⟨2, ![10000, 10000]⟩
abbrev SW : Shape := ⟨1, ![128]⟩

/-- Row p, column q of the result: the features aggregated along row p of the adjacency matrix, then scaled by
    the q-th weight. -/
def aggAt (x : SX.Idx → EReal) (A : SA.Idx → EReal) (W : SW.Idx → EReal) (p : Fin 10000) (q : Fin 128) : EReal :=
  (∑ k : Fin 10000, A (ix2 p k) * x (ix2 k q)) * W (ix1 q)

/-- The whole result array. -/
def agg (x : SX.Idx → EReal) (A : SA.Idx → EReal) (W : SW.Idx → EReal) : SX.Idx → EReal :=
  fun i => aggAt x A W (i 0) (i 1)

theorem agg_ix2 (x : SX.Idx → EReal) (A : SA.Idx → EReal) (W : SW.Idx → EReal) (p : Fin 10000) (q : Fin 128) :
    agg x A W (ix2 p q) = aggAt x A W p q := rfl

/-- An extended real that is neither infinity is a real number. -/
def IsReal (a : EReal) : Prop := a ≠ ⊤ ∧ a ≠ ⊥

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of a product with a diagonal matrix: of ∑ l, x l · (w l if l = j, else 0) only the term l = j survives.
    No finiteness is needed: a product with zero is zero on every extended real. -/
theorem sum_mul_diag {n : Nat} (x w : Fin n → EReal) (j : Fin n) :
    ∑ l : Fin n, x l * (if l = j then w l else 0) = x j * w j := by
  simp only [mul_ite, mul_zero]
  rw [Finset.sum_ite_eq' Finset.univ j fun l => x l * w l]
  simp

/-- Distributivity over a finite sum of real terms: the common right factor w leaves the sum. -/
theorem sum_mul_mul_right {n : Nat} (a b : Fin n → EReal) (w : EReal) (ha : ∀ k, IsReal (a k)) (hb : ∀ k, IsReal (b k))
    (hw : IsReal w) : ∑ k : Fin n, a k * (b k * w) = (∑ k : Fin n, a k * b k) * w := by
  lift a to Fin n → ℝ using ha
  lift b to Fin n → ℝ using hb
  lift w to ℝ using hw
  simp only [← EReal.coe_mul, ← coe_sum]
  rw [Finset.sum_mul]
  exact congrArg _ (Finset.sum_congr rfl fun k _ => (mul_assoc _ _ _).symm)

end GcnDiag

end
-- ==== Proof.KernelBlocks.lean ====
/-
  The kernel's side: what the result array holds after the run.

  The grid has 25 points; point t stages rows 400·t … 400·t + 399 of the adjacency matrix (all 10000 columns), the
  whole feature matrix and the one row of weights, and writes back rows 400·t … 400·t + 399 of the result. The
  body's value at row p, column q of its block is the matrix product of the two staged blocks there — the sum
  over k of A-block (p, k) · x (k, q), rounding the operands to bf16 being the identity on extended reals —
  times the weight of column q. Read through the windows that is `agg` at row 400·t + p, column q; the 25
  blocks tile the result array, so the array ends holding `agg` of the three arguments.
-/
import proofs.«132242_g78194174591220_cont_9to1_m_1274_3_alg».proof.Proof.Gen.KernelIdeal.Value
import proofs.«132242_g78194174591220_cont_9to1_m_1274_3_alg».proof.Proof.LibPlainDot
import proofs.«132242_g78194174591220_cont_9to1_m_1274_3_alg».proof.Proof.Spec
import Idealize.ShloMosaic.Lib.Pipeline.Value
import Idealize.ShloMosaic.Lib.ValueLayout
import Idealize.ShloMosaic.Lib.StableHlo.Run

noncomputable section

namespace GcnDiag.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The body's value at an index of its block -/

/-- Row p, column q of what the body stores: the product of the staged adjacency rows and the features, summed
    over the 10000 nodes, times the staged weight of column q. -/
theorem pay_apply (a : FVec Ideal S400x10000 .f32) (x : FVec Ideal S10000x128 .f32) (w : FVec Ideal S1x128 .f32)
    (p : Fin 400) (q : Fin 128) :
    k0_pay1 (F := Ideal) a x w (ix2 p q) = (∑ k : Fin 10000, a (ix2 p k) * x (ix2 k q)) * w (ix2 (0 : Fin 1) q) := by
  unfold k0_pay1
  show (matmul dot_S400x10000_S10000x128_S400x128_1_0_0_1_n_n none (truncf .bf16 a bitsLt_bf16_f32) (truncf .bf16 x bitsLt_bf16_f32)
          (constant S400x128 .f32 0x00000000#32)) (ix2 p q)
      * (broadcastTo S400x128 (shapeCast S1x128 w shapeCasts_S1x128_S1x128) broadcasts_S1x128_S400x128) (ix2 p q) = _
  congr 1
  · exact PlainDot.matmul_zero_apply ⟨rfl, rfl, rfl, rfl, rfl, rfl⟩ none (truncf .bf16 a bitsLt_bf16_f32) (truncf .bf16 x bitsLt_bf16_f32) p q
  · rw [shapeCast_self]
    exact broadcastTo_apply w broadcasts_S1x128_S400x128 (ix2 p q) (ix2 (0 : Fin 1) q) (fun a => by
      match a with
      | ⟨0, _⟩ => rfl
      | ⟨1, _⟩ => rfl)

/-- The same at any index j of the block, against `agg` of three arrays at an index i of the result, given that
    the staged blocks are those arrays read at the matching rows and columns. -/
theorem point_value (a : FVec Ideal S400x10000 .f32) (x : FVec Ideal S10000x128 .f32) (w : FVec Ideal S1x128 .f32)
    (X : SX.Idx → EReal) (A : SA.Idx → EReal) (W : SW.Idx → EReal) (j : S400x128.Idx) (i : SX.Idx)
    (ha : ∀ k : Fin 10000, a (ix2 (j 0) k) = A (ix2 (i 0) k))
    (hx : ∀ k : Fin 10000, x (ix2 k (j 1)) = X (ix2 k (i 1)))
    (hw : w (ix2 (0 : Fin 1) (j 1)) = W (ix1 (i 1))) :
    k0_pay1 (F := Ideal) a x w j = agg X A W i := by
  obtain ⟨p, q, rfl⟩ : ∃ (p : Fin 400) (q : Fin 128), j = ix2 p q := ⟨j 0, j 1, eq_ix2 j⟩
  rw [pay_apply]
  unfold agg aggAt
  rw [← hw]
  exact congrArg (· * w (ix2 (0 : Fin 1) q)) (Finset.sum_congr rfl fun k _ => by rw [ha k, hx k])

/-! ## The windows' blocks -/

/-- The printed index maps, decided over the 25 points: the adjacency window's row-block index is the output
    window's; every other block index is zero (the features and the weights are staged whole, and no window is
    split along columns); the output's row-block index is at most 24. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every one of the 25 row blocks of the result is some point's. -/
theorem idx_onto : ∀ b : Fin 25, ∃ t : Fin cfg0.N, win0_3.index t = ![b.val, 0] :=
  (by decide +kernel : ∀ b : Fin 25, ∃ t : Fin grid0.N, win0_3.index t = ![b.val, 0])

/-- The weights as the region finds them: the one row of the reshaped [1, 128] array. -/
def wrow (c : Dev nD) : SW.Idx → EReal :=
  fun i => (V m c main_v0 : S1x128.Idx → EReal) (ix2 (0 : Fin 1) (i 0))

/-- WHAT POINT t WRITES BACK is block t of `agg` of the arrays as the region finds them. -/
theorem flushed_eq (c : Dev nD) (t : Fin cfg0.N) :
    (dats m 0 c).flushed 3 t
      = ((cfg0.win 3).blk t).view.read (Elt Ideal) (agg (V m c main_arg0) (V m c main_arg1) (wrow m c)) := by
  rw [Value.flushed3]
  unfold out0_3
  rw [View.canon_unit_zero hz]
  simp only [View.ld_unit_zero (S := S400x10000) hz, View.ld_unit_zero (S := S10000x128) hz, View.ld_unit_zero (S := S1x128) hz]
  obtain ⟨e00, e01, e10, e11, e20, e21, e31, -⟩ := idx_facts t
  funext j
  show k0_pay1 (F := Ideal) (iblk m c 0 t) (iblk m c 1 t) (iblk m c 2 t) j
      = agg (V m c main_arg0) (V m c main_arg1) (wrow m c) (((cfg0.win 3).blk t).view.emb j)
  refine point_value (iblk m c 0 t) (iblk m c 1 t) (iblk m c 2 t) _ _ _ j _ (fun k => ?_) (fun k => ?_) ?_
  · show V m c main_arg1 (((cfg0.win 0).blk t).view.emb (ix2 (j 0) k))
        = V m c main_arg1 (ix2 ((((cfg0.win 3).blk t).view.emb j) 0) k)
    refine congrArg (V m c main_arg1) (funext fun a => Fin.ext ?_)
    match a with
    | ⟨0, _⟩ => show win0_0.index t (0 : Fin 2) * 400 + 1 * (j 0).val = win0_3.index t (0 : Fin 2) * 400 + 1 * (j 0).val; omega
    | ⟨1, _⟩ => show win0_0.index t (1 : Fin 2) * 10000 + 1 * k.val = k.val; omega
  · show V m c main_arg0 (((cfg0.win 1).blk t).view.emb (ix2 k (j 1)))
        = V m c main_arg0 (ix2 k ((((cfg0.win 3).blk t).view.emb j) 1))
    refine congrArg (V m c main_arg0) (funext fun a => Fin.ext ?_)
    match a with
    | ⟨0, _⟩ => show win0_1.index t (0 : Fin 2) * 10000 + 1 * k.val = k.val; omega
    | ⟨1, _⟩ => show win0_1.index t (1 : Fin 2) * 128 + 1 * (j 1).val = win0_3.index t (1 : Fin 2) * 128 + 1 * (j 1).val; omega
  · show V m c main_v0 (((cfg0.win 2).blk t).view.emb (ix2 (0 : Fin 1) (j 1)))
        = V m c main_v0 (ix2 (0 : Fin 1) ((((cfg0.win 3).blk t).view.emb j) 1))
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-! ## From the 25 blocks to the array -/

/-- An index of the result array is in point t's block iff each coordinate is in the block's range on its axis. -/
theorem mem_blk (t : Fin cfg0.N) (i : S10000x128.Idx) :
    i ∈ ((cfg0.win 3).blk t).view.set
      ↔ ∀ a : Fin 2, win0_3.index t a * S400x128.size a ≤ (i a).val ∧ (i a).val < win0_3.index t a * S400x128.size a + S400x128.size a := by
  show i ∈ ((View.whole main_v1).slice (win0_3.rect t)).set ↔ _
  rw [View.set_slice_whole, Rect.mem_set_unit]
  exact Iff.rfl

/-- Every index of the result array lies in some point's block: row r is in row block r / 400. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- The reshape before the region lays the 128 weights out as the one row of a [1, 128] array. -/
theorem wrow_eq (c : Dev nD) : wrow m c = m ((c : Thread nD τ).loc main_arg2) := by
  have e : (V m c main_v0 : S1x128.Idx → EReal) = shapeCast S1x128 (m ((c : Thread nD τ).loc main_arg2)) shapeCasts_S128_S1x128 := by
    dsimp only [Gen.V, Gen.hostOps0]; after_results; rfl
  funext i
  unfold wrow
  rw [e]
  refine (shapeCast_apply _ shapeCasts_S128_S1x128 (ix2 (0 : Fin 1) (i 0)) i ?_).trans rfl
  rw [Shape.rowMajor_val_one, Shape.rowMajor_val_two]
  show (i 0).val = 0 * 128 + (i 0).val
  omega

/-- THE ARRAY after the run: `agg` of the three arguments as launched. -/
theorem final (c : Dev nD) :
    (dats m 0 c).arrAt 3 cfg0.N
      = agg (m ((c : Thread nD τ).loc main_arg0)) (m ((c : Thread nD τ).loc main_arg1)) (m ((c : Thread nD τ).loc main_arg2)) := by
  rw [← V_main_arg0 m c, ← V_main_arg1 m c, ← wrow_eq m c]
  exact (dats m 0 c).arrAt_eq_of_cover 3 _ (fun t _ => flushed_eq m c t) cover

/-- The kernel's run, read: the result array at `agg` of the arguments, the arguments unchanged. -/
theorem run : θ_run defs (onTc (τ := τ) (main (F := Ideal))) ⟨m, fun _ => 0, ρ⟩ fun r => ∀ c : Dev nD,
      r.2.mem ((c : Thread nD τ).loc main_v1)
          = agg (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end GcnDiag.Kernel

end
-- ==== Proof.RefRun.lean ====
/-
  The reference program read back: its @main is a straight line of fifteen host operations — the thirteen that
  build the diagonal matrix of the weights (the padding by nothing, the two coordinate grids and their comparison,
  the weights broadcast along rows, the zero, the select), listed at the call sites of the two
  functions the program outlines, and the two matrix products — so every weakly fair execution terminates with the result buffer at
  the operations' composed term of the three arguments, the arguments unchanged.
-/
import proofs.«132242_g78194174591220_cont_9to1_m_1274_3_alg».proof.Proof.Gen.ReferenceIdeal
import Idealize.ShloMosaic.Lib.StableHlo.Run

noncomputable section

namespace GcnDiag.Ref

open Cert.ReferenceIdeal Cert.ReferenceIdeal.Gen Idealize.ShloMosaic Idealize.ShloMosaic.TcCoe Idealize.SL.Sem Idealize.ShloMosaic.StableHlo

variable {F : FTy → Type} [FloatOps F]

/-- The diagonal matrix of the weights as the reference builds it: where the row coordinate equals the column
    coordinate, the weight of that row; elsewhere zero. -/
def diagOf (W : (⟨S128, .f32⟩ : BufTy).Contents (Elt F)) : (⟨S128x128, .f32⟩ : BufTy).Contents (Elt F) :=
  select
    (cmpi .eq (addi (iotaInDim S128x128 32 0) (broadcastInDim S128x128 ![] bcast_S_S128x128 (constantI S_ 32 0#32)))
      (iotaInDim S128x128 32 1))
    (broadcastInDim S128x128 ![0, 1] bcast_S128x1_S128x128_0_1
      (broadcastInDim S128x1 ![0] bcast_S128_S128x1_0
        (pad S128 ![0] ![0] ![0] W (constant (F := F) S_ .f32 0x00000000#32) pads_S128_S128_000 h_S_)))
    (broadcastInDim S128x128 ![] bcast_S_S128x128 (constant (F := F) S_ .f32 0x00000000#32))

/-- The reference's result as one term of its arguments: the adjacency matrix times (the features times the
    diagonal matrix). -/
def result (x : (⟨S10000x128, .f32⟩ : BufTy).Contents (Elt F)) (A : (⟨S10000x10000, .f32⟩ : BufTy).Contents (Elt F))
    (W : (⟨S128, .f32⟩ : BufTy).Contents (Elt F)) : (⟨S10000x128, .f32⟩ : BufTy).Contents (Elt F) :=
  Host.dotGeneral dot_S10000x10000_S10000x128_S10000x128_1_0_0_1_n_n none A
    (Host.dotGeneral dot_S10000x128_S128x128_S10000x128_1_0_0_1_n_n none x (diagOf W))

/-- @main's fifteen operations in order, the two calls unfolded into the buffers of their records. -/
abbrev ops : List (HloOp τ sig (Elt F)) :=
  [ TRef.nullary main_call0.cst (constant S_ .f32 0x00000000#32),
    TRef.binary (.of main_arg2) main_call0.cst main_call0.v0 (fun x v => pad S128 ![0] ![0] ![0] x v pads_S128_S128_000 h_S_),
    TRef.nullary main_call0.v1 (iotaInDim S128x128 32 0),
    TRef.nullary main_call0.v2 (iotaInDim S128x128 32 1),
    TRef.nullary main_call0.c (constantI S_ 32 0#32),
    TRef.unary main_call0.c main_call0.v3 (broadcastInDim S128x128 ![] bcast_S_S128x128),
    TRef.binary main_call0.v1 main_call0.v3 main_call0.v4 addi,
    TRef.binary main_call0.v4 main_call0.v2 main_call0.v5 (cmpi .eq),
    TRef.unary main_call0.v0 main_call0.v6 (broadcastInDim S128x1 ![0] bcast_S128_S128x1_0),
    TRef.nullary main_call0.cst_0 (constant S_ .f32 0x00000000#32),
    TRef.unary main_call0.v6 main_call0.call0.v0 (broadcastInDim S128x128 ![0, 1] bcast_S128x1_S128x128_0_1),
    TRef.unary main_call0.cst_0 main_call0.call0.v1 (broadcastInDim S128x128 ![] bcast_S_S128x128),
    TRef.ternary main_call0.v5 main_call0.call0.v0 main_call0.call0.v1 main_call0.call0.v2 select,
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v1 main_v2 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ]

/-- @main is that straight line: the two functions' bodies unfolded at their calls, sequencing reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., binary_bufs_sub .., binary_bufs_sub ..⟩

/-- The fold of the fifteen operations at the result buffer is `result` of the arguments' launch contents. -/
theorem out_eq (V : Valuation τ sig (Elt F)) :
    after ops V (main_v2 : DevRef τ sig)
      = result (V (main_arg0 : DevRef τ sig)) (V (main_arg1 : DevRef τ sig)) (V (main_arg2 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

/-- On the one device, for any float values, from any memory with zero counters: every weakly fair execution of
    @main terminates with the result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end GcnDiag.Ref

end
-- ==== Proof.RefValue.lean ====
/-
  The reference's side: its result term read at an index, and that it is `agg` of the arguments when they are finite.

  The diagonal matrix at row l, column j is the weight W l where l = j and zero elsewhere (the two coordinate
  grids are compared as 32-bit words, which for coordinates below 128 is comparing the coordinates). The first
  matrix product, the features times that matrix, is therefore x (k, j) · W j at row k, column j: of the 128 terms
  of its sum one survives. The second product sums A (i, k) · (x (k, j) · W j) over the 10000 nodes; with every
  entry a real number the common factor W j leaves the sum, and that is `agg`.
-/
import proofs.«132242_g78194174591220_cont_9to1_m_1274_3_alg».proof.Proof.RefRun
import proofs.«132242_g78194174591220_cont_9to1_m_1274_3_alg».proof.Proof.LibPlainDot
import proofs.«132242_g78194174591220_cont_9to1_m_1274_3_alg».proof.Proof.Spec
import Idealize.ShloMosaic.Lib.Pipeline.Value
import Idealize.ShloMosaic.Lib.KernelVsHost
import Idealize.ShloMosaic.Lib.StableHlo.Predicate

noncomputable section

namespace GcnDiag.Ref

open Cert.ReferenceIdeal Cert.ReferenceIdeal.Gen Idealize.ShloMosaic Idealize.ShloMosaic.ValueIdx

/-- Two coordinates below 128, as 32-bit words (the first with the zero offset the reference adds), are equal
    words only if they are equal. -/
theorem coord_eq_of_word_eq {a b : Nat} (ha : a < 128) (hb : b < 128)
    (h : IntOp.addi (BitVec.ofNat 32 a) 0#32 = BitVec.ofNat 32 b) : a = b := by
  have h' := congrArg BitVec.toNat h
  simp only [IntOp.addi, BitVec.add_zero, BitVec.toNat_ofNat] at h'
  omega

/-- The mask of the diagonal at (l, j): one exactly when l = j. -/
theorem mask_apply (l j : Fin 128) :
    cmpi .eq (addi (iotaInDim S128x128 32 0) (broadcastInDim S128x128 ![] bcast_S_S128x128 (constantI S_ 32 0#32)))
      (iotaInDim S128x128 32 1) (ix2 l j) = if l = j then 1#1 else 0#1 := by
  show IntOp.cmpi .eq (IntOp.addi (BitVec.ofNat 32 l.val) 0#32) (BitVec.ofNat 32 j.val) = _
  by_cases h : l = j
  · subst h
    rw [if_pos rfl]
    exact StableHlo.Predicate.cmpi_eq_iff.mpr (by simp only [IntOp.addi, BitVec.add_zero])
  · rw [if_neg h]
    exact eq_zero_of_ne_one fun hc =>
      h (Fin.ext (coord_eq_of_word_eq l.isLt j.isLt (StableHlo.Predicate.cmpi_eq_iff.mp hc)))

/-- The weights broadcast along rows, at (l, j): the weight of ROW l (the padding by nothing is the identity, the
    column of 128 weights is repeated across the 128 columns). -/
theorem rows_apply (W : FVec Ideal S128 .f32) (l j : Fin 128) :
    broadcastInDim S128x128 ![0, 1] bcast_S128x1_S128x128_0_1
      (broadcastInDim S128x1 ![0] bcast_S128_S128x1_0
        (pad S128 ![0] ![0] ![0] W (constant (F := Ideal) S_ .f32 0x00000000#32) pads_S128_S128_000 h_S_)) (ix2 l j)
      = W (ix1 l) := by
  refine (broadcastInDim_apply _ bcast_S128x1_S128x128_0_1 _ (ix2 l j) (ix2 l (0 : Fin 1)) (fun a => by
    match a with
    | ⟨0, _⟩ => rfl
    | ⟨1, _⟩ => rfl)).trans ?_
  refine (broadcastInDim_apply _ bcast_S128_S128x1_0 _ (ix2 l (0 : Fin 1)) (ix1 l) (fun a => by
    match a with
    | ⟨0, _⟩ => rfl)).trans ?_
  exact pad_apply_of_inside _ _ _ W _ pads_S128_S128_000 h_S_ (ix1 l) (ix1 l) (fun a => by
    match a with
    | ⟨0, _⟩ => show l.val = 0 + l.val * (0 + 1); omega)

/-- The diagonal matrix at (l, j): the weight W l on the diagonal, zero off it. -/
theorem diagOf_apply (W : FVec Ideal S128 .f32) (l j : Fin 128) :
    diagOf (F := Ideal) W (ix2 l j) = if l = j then W (ix1 l) else 0 := by
  unfold diagOf
  rw [select_apply, mask_apply, rows_apply]
  by_cases h : l = j
  · rw [if_pos h, if_pos h, select_one]
  · rw [if_neg h, if_neg h, select_zero]
    exact Ideal.ofBits_zero_f32

/-- The reference's result at (p, q): the sum over the nodes k of A (p, k) · (x (k, q) · W q). -/
theorem result_apply (x : FVec Ideal S10000x128 .f32) (A : FVec Ideal S10000x10000 .f32) (W : FVec Ideal S128 .f32)
    (p : Fin 10000) (q : Fin 128) :
    result (F := Ideal) x A W (ix2 p q) = ∑ k : Fin 10000, A (ix2 p k) * (x (ix2 k q) * W (ix1 q)) := by
  unfold result
  refine (PlainDot.dotGeneral_apply ⟨rfl, rfl, rfl, rfl, rfl, rfl⟩ none .single A _ p q).trans ?_
  refine Finset.sum_congr rfl fun k _ => congrArg (A (ix2 p k) * ·) ?_
  refine (PlainDot.dotGeneral_apply ⟨rfl, rfl, rfl, rfl, rfl, rfl⟩ none .single x (diagOf (F := Ideal) W) k q).trans ?_
  simp only [diagOf_apply]
  exact sum_mul_diag (fun l => x (ix2 k l)) (fun l => W (ix1 l)) q

/-- With every entry of the three arguments a real number, the reference's result is `agg` of them. -/
theorem result_eq_agg (x : FVec Ideal S10000x128 .f32) (A : FVec Ideal S10000x10000 .f32) (W : FVec Ideal S128 .f32)
    (hx : ∀ i, IsReal (x i)) (hA : ∀ i, IsReal (A i)) (hW : ∀ i, IsReal (W i)) :
    result (F := Ideal) x A W = agg x A W := by
  funext i
  obtain ⟨p, q, rfl⟩ : ∃ (p : Fin 10000) (q : Fin 128), i = ix2 p q := ⟨i 0, i 1, eq_ix2 i⟩
  rw [result_apply, agg_ix2]
  exact sum_mul_mul_right (fun k => A (ix2 p k)) (fun k => x (ix2 k q)) (W (ix1 q)) (fun k => hA _) (fun k => hx _) (hW _)

end GcnDiag.Ref

end
-- ==== Proof.Finite.lean ====
/-
  The precondition read back: `finite_inputs` is the conjunction of three tests, one per argument, each saying
  that every entry's absolute value is below +∞. On the extended reals |a| = max a (-a) is below +∞ exactly when
  a is neither +∞ nor -∞, that is, when a is a real number. So under the precondition every entry of the features,
  of the adjacency matrix and of the weights is a real number.
-/
import proofs.«132242_g78194174591220_cont_9to1_m_1274_3_alg».proof.Proof.Gen.Pre_finite_inputs
import proofs.«132242_g78194174591220_cont_9to1_m_1274_3_alg».proof.Proof.Spec
import Idealize.ShloMosaic.Lib.ReduceAll
import Idealize.ShloMosaic.Lib.ValueIdx
import Idealize.ShloMosaic.PureOps.Ideal.Laws

noncomputable section

namespace GcnDiag.Finite

open Cert.Pre_finite_inputs Cert.Pre_finite_inputs.Gen Idealize.ShloMosaic

instance : Subsingleton S_.Idx := ⟨fun a b => funext fun d => d.elim0⟩

/-- The f32 pattern of +∞ is the top extended real. -/
theorem ofBits_inf : Ideal.ofBits .f32 0x7F800000#32 = (⊤ : EReal) := by simp [Ideal.ofBits, Ideal.ieee]

/-- An extended real whose absolute value compares below +∞ is a real number. -/
theorem isReal_of_abs_lt (a : EReal)
    (h : Ideal.cmp .olt (max a (-a)) (Ideal.ofBits .f32 0x7F800000#32) = 1#1) : IsReal a := by
  rw [ofBits_inf] at h
  have hlt : max a (-a) < ⊤ := by
    by_contra hn
    simp [Ideal.cmp, hn] at h
  induction a using EReal.rec with
  | bot => simp at hlt
  | top => simp at hlt
  | coe r => exact ⟨EReal.coe_ne_top r, EReal.coe_ne_bot r⟩

/-- Under `finite_inputs` every entry of each of the three arguments is a real number. -/
theorem all_real (x : FVec Ideal S10000x128 .f32) (A : FVec Ideal S10000x10000 .f32) (W : FVec Ideal S128 .f32)
    (h : fn (F := Ideal) x A W = fun _ => 1#1) :
    (∀ i, IsReal (x i)) ∧ (∀ i, IsReal (A i)) ∧ (∀ i, IsReal (W i)) := by
  have h0 := congrFun h ValueIdx.ix0
  dsimp only [fn] at h0
  obtain ⟨h01, hW⟩ := IntOp.andi_eq_one.1 h0
  obtain ⟨hx, hA⟩ := IntOp.andi_eq_one.1 h01
  refine ⟨fun i => ?_, fun i => ?_, fun i => ?_⟩
  · exact isReal_of_abs_lt (x i) (Host.reduce_andi_all _ _ reducesTo_S10000x128_S_d0_1 h_S_ ValueIdx.ix0 hx i)
  · exact isReal_of_abs_lt (A i) (Host.reduce_andi_all _ _ reducesTo_S10000x10000_S_d0_1 h_S_ ValueIdx.ix0 hA i)
  · exact isReal_of_abs_lt (W i) (Host.reduce_andi_all _ _ reducesTo_S128_S_d0 h_S_ ValueIdx.ix0 hW i)

end GcnDiag.Finite

end
-- ==== Proof.lean ====
/-
  The certificate of a graph-convolution kernel with diagonal weights against its reference.

  The reference scales the features by the diagonal matrix of the weights and then aggregates them with the dense
  adjacency matrix: A · (x · diag W). The kernel aggregates first, a block of 400 rows of A at a time against the
  whole feature matrix, and scales the aggregated block's columns by the weights: (A · x) with column j times W j.
  On the extended reals, with every input entry a real number, both are

      (i, j) ↦ (∑ k, A (i, k) · x (k, j)) · W j

  (Proof/Spec.lean: `agg`, and the two laws — a product with a diagonal matrix keeps one term of each sum; a common
  real factor leaves a sum of real terms). Proof/KernelBlocks.lean reads the kernel's result array off its run,
  block by block; Proof/RefRun.lean and Proof/RefValue.lean read the reference's run and its result term at an
  index; Proof/Finite.lean turns the precondition into "every entry is a real number"; Proof/LibPlainDot.lean reads
  a plain matrix product at an index as a sum over the contracted axis. The idealization rewrote nothing, so the
  preservation claim is trivial; the three frames are the kernels' generated frames and the reference's run.
-/
import proofs.«132242_g78194174591220_cont_9to1_m_1274_3_alg».proof.Defs
import proofs.«132242_g78194174591220_cont_9to1_m_1274_3_alg».proof.Proof.Gen.Kernel
import proofs.«132242_g78194174591220_cont_9to1_m_1274_3_alg».proof.Proof.Gen.Kernel.Frame
import proofs.«132242_g78194174591220_cont_9to1_m_1274_3_alg».proof.Proof.Gen.KernelIdeal
import proofs.«132242_g78194174591220_cont_9to1_m_1274_3_alg».proof.Proof.Gen.KernelIdeal.Frame
import proofs.«132242_g78194174591220_cont_9to1_m_1274_3_alg».proof.Proof.Gen.ReferenceIdeal
import proofs.«132242_g78194174591220_cont_9to1_m_1274_3_alg».proof.Proof.Gen.Pre_finite_inputs
import proofs.«132242_g78194174591220_cont_9to1_m_1274_3_alg».proof.Proof.KernelBlocks
import proofs.«132242_g78194174591220_cont_9to1_m_1274_3_alg».proof.Proof.RefValue
import proofs.«132242_g78194174591220_cont_9to1_m_1274_3_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result forgotten, is its frame. -/
theorem frame_referenceIdeal : Cert.frame_ReferenceIdeal := fun m ρ _ =>
  (θ_run Cert.ReferenceIdeal.defs _ _).mono (fun _ h c => (h c).2) (GcnDiag.Ref.run (F := Ideal) m ρ)

/-- The idealization rewrote no operation. -/
theorem preserves : Cert.preserves_Kernel_KernelIdeal := trivial

/-- From memories agreeing on the three arguments, all finite, the kernel's result array ends at `agg` of them
    (its run read block by block) and so does the reference's (its result term read at an index, the common
    weight taken out of the sum over the nodes, which is where finiteness is used). -/
theorem algebraic : Cert.algebraic_KernelIdeal_ReferenceIdeal := by
  intro m ρ m' ρ' hpre hagree
  refine ⟨_, GcnDiag.Kernel.run m ρ, ?_⟩
  refine (θ_run Cert.ReferenceIdeal.defs _ _).mono (fun _ h c => ⟨(h c).1.trans ?_, (h c).2⟩)
    (GcnDiag.Ref.run (F := Ideal) m' ρ')
  rw [(hagree c).1, (hagree c).2.1, (hagree c).2.2]
  obtain ⟨hx, hA, hW⟩ := GcnDiag.Finite.all_real _ _ _ (hpre c)
  exact GcnDiag.Ref.result_eq_agg _ _ _ hx hA hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
